-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x512 : Shape := ⟨2, ![8192, 512]⟩
abbrev S8192x1024 : Shape := ⟨2, ![8192, 1024]⟩
abbrev S512x128 : Shape := ⟨2, ![512, 128]⟩
abbrev S512 : Shape := ⟨1, ![512]⟩
abbrev S128x512 : Shape := ⟨2, ![128, 512]⟩
abbrev S128 : Shape := ⟨1, ![128]⟩
abbrev S512x512 : Shape := ⟨2, ![512, 512]⟩
abbrev S1024x512 : Shape := ⟨2, ![1024, 512]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S512x512 : S_.BroadcastsInDim S512x512 (![] : Fin 0 → Fin S512x512.rank)
  reducesTo_S512x512_S_d0_1 : S512x512.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part6 {F : FTy → Type} [FloatOps F] (main_arg21 : FVec F S1024 .f32) (main_v98 : IVec S_ 1) (main_v101 : IVec S1024x1024 1) (main_c_39 : IVec S_ 1) : IVec S_ 1 :=
  let main_v102 : IVec S_ 1 := (fun x v => Host.reduce IntOp.andi x v reducesTo_S1024x1024_S_d0_1 h_S_) main_v101 main_c_39
  let main_v103 : IVec S_ 1 := andi main_v98 main_v102
  let main_v104 : FVec F S1024 .f32 := Host.absf main_arg21
  let main_cst_40 : FVec F S_ .f32 := constant S_ .f32 0x7F800000#32
  let main_v105 : FVec F S1024 .f32 := broadcastInDim S1024 ![] bcast_S_S1024 main_cst_40
  let main_v106 : IVec S1024 1 := cmpf .olt main_v104 main_v105
  let main_c_41 : IVec S_ 1 := constantI S_ 1 1#1
  let main_v107 : IVec S_ 1 := (fun x v => Host.reduce IntOp.andi x v reducesTo_S1024_S_d0 h_S_) main_v106 main_c_41
  let main_v108 : IVec S_ 1 := andi main_v103 main_v107
  main_v108

def fn_part5 {F : FTy → Type} [FloatOps F] (main_arg18 : FVec F S512x1024 .f32) (main_arg19 : FVec F S512 .f32) (main_arg20 : FVec F S1024x1024 .f32) (main_arg21 : FVec F S1024 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512x1024 .f32 := Host.absf main_arg18
  let main_cst_34 : FVec F S_ .f32 := constant S_ .f32 0x7F800000#32
  let main_v90 : FVec F S512x1024 .f32 := broadcastInDim S512x1024 ![] bcast_S_S512x1024 main_cst_34
  let main_v91 : IVec S512x1024 1 := cmpf .olt main_v89 main_v90
  let main_c_35 : IVec S_ 1 := constantI S_ 1 1#1
  let main_v92 : IVec S_ 1 := (fun x v => Host.reduce IntOp.andi x v reducesTo_S512x1024_S_d0_1 h_S_) main_v91 main_c_35
  let main_v93 : IVec S_ 1 := andi main_v88 main_v92
  let main_v94 : FVec F S512 .f32 := Host.absf main_arg19
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S1024x1024 .f32 := Host.absf main_arg20
  let main_cst_38 : FVec F S_ .f32 := constant S_ .f32 0x7F800000#32
  let main_v100 : FVec F S1024x1024 .f32 := broadcastInDim S1024x1024 ![] bcast_S_S1024x1024 main_cst_38
  let main_v101 : IVec S1024x1024 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S1024x512 .f32) (main_arg15 : FVec F S1024 .f32) (main_arg16 : FVec F S512x512 .f32) (main_arg17 : FVec F S512 .f32) (main_arg18 : FVec F S512x1024 .f32) (main_arg19 : FVec F S512 .f32) (main_arg20 : FVec F S1024x1024 .f32) (main_arg21 : FVec F S1024 .f32) (main_v63 : IVec S_ 1) (main_v67 : IVec S_ 1) : IVec S_ 1 :=
  let main_v68 : IVec S_ 1 := andi main_v63 main_v67
  let main_v69 : FVec F S1024x512 .f32 := Host.absf main_arg14
  let main_cst_26 : FVec F S_ .f32 := constant S_ .f32 0x7F800000#32
  let main_v70 : FVec F S1024x512 .f32 := broadcastInDim S1024x512 ![] bcast_S_S1024x512 main_cst_26
  let main_v71 : IVec S1024x512 1 := cmpf .olt main_v69 main_v70
  let main_c_27 : IVec S_ 1 := constantI S_ 1 1#1
  let main_v72 : IVec S_ 1 := (fun x v => Host.reduce IntOp.andi x v reducesTo_S1024x512_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S512x512 .f32 := Host.absf main_arg16
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S512 .f32) (main_arg12 : FVec F S512x512 .f32) (main_arg13 : FVec F S512 .f32) (main_arg14 : FVec F S1024x512 .f32) (main_arg15 : FVec F S1024 .f32) (main_arg16 : FVec F S512x512 .f32) (main_arg17 : FVec F S512 .f32) (main_arg18 : FVec F S512x1024 .f32) (main_arg19 : FVec F S512 .f32) (main_arg20 : FVec F S1024x1024 .f32) (main_arg21 : FVec F S1024 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S128 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S1024x512 .f32) (main_arg15 : FVec F S1024 .f32) (main_arg16 : FVec F S512x512 .f32) (main_arg17 : FVec F S512 .f32) (main_arg18 : FVec F S512x1024 .f32) (main_arg19 : FVec F S512 .f32) (main_arg20 : FVec F S1024x1024 .f32) (main_arg21 : FVec F S1024 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S512x128 .f32) (main_arg5 : FVec F S512 .f32) (main_arg6 : FVec F S128x512 .f32) (main_arg7 : FVec F S128 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S1024x512 .f32) (main_arg15 : FVec F S1024 .f32) (main_arg16 : FVec F S512x512 .f32) (main_arg17 : FVec F S512 .f32) (main_arg18 : FVec F S512x1024 .f32) (main_arg19 : FVec F S512 .f32) (main_arg20 : FVec F S1024x1024 .f32) (main_arg21 : FVec F S1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S128x512 .f32 := Host.absf main_arg6
  let main_cst_10 : FVec F S_ .f32 := constant S_ .f32 0x7F800000#32
  let main_v30 : FVec F S128x512 .f32 := broadcastInDim S128x512 ![] bcast_S_S128x512 main_cst_10
  let main_v31 : IVec S128x512 1 := cmpf .olt main_v29 main_v30
  let main_c_11 : IVec S_ 1 := constantI S_ 1 1#1
  let main_v32 : IVec S_ 1 := (fun x v => Host.reduce IntOp.andi x v reducesTo_S128x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S8192x128 .f32) (main_arg1 : FVec F S8192x512 .f32) (main_arg2 : FVec F S8192x512 .f32) (main_arg3 : FVec F S8192x1024 .f32) (main_arg4 : FVec F S512x128 .f32) (main_arg5 : FVec F S512 .f32) (main_arg6 : FVec F S128x512 .f32) (main_arg7 : FVec F S128 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S1024x512 .f32) (main_arg15 : FVec F S1024 .f32) (main_arg16 : FVec F S512x512 .f32) (main_arg17 : FVec F S512 .f32) (main_arg18 : FVec F S512x1024 .f32) (main_arg19 : FVec F S512 .f32) (main_arg20 : FVec F S1024x1024 .f32) (main_arg21 : FVec F S1024 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S8192x128 : Shape := ⟨2, ![8192, 128]⟩
abbrev S8192x512 : Shape := ⟨2, ![8192, 512]⟩
abbrev S8192x1024 : Shape := ⟨2, ![8192, 1024]⟩
abbrev S512x128 : Shape := ⟨2, ![512, 128]⟩
abbrev S512 : Shape := ⟨1, ![512]⟩
abbrev S128x512 : Shape := ⟨2, ![128, 512]⟩
abbrev S128 : Shape := ⟨1, ![128]⟩
abbrev S512x512 : Shape := ⟨2, ![512, 512]⟩
abbrev S1024x512 : Shape := ⟨2, ![1024, 512]⟩
abbrev S1024 : Shape := ⟨1, ![1024]⟩
abbrev S512x1024 : Shape := ⟨2, ![512, 1024]⟩
abbrev S1024x1024 : Shape := ⟨2, ![1024, 1024]⟩
abbrev S1024x128 : Shape := ⟨2, ![1024, 128]⟩
abbrev S1x512 : Shape := ⟨2, ![1, 512]⟩
abbrev S1x128 : Shape := ⟨2, ![1, 128]⟩

abbrev nBuf : Space → Nat
  | .hbm => 31
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S512x128, .f32⟩
  | .hbm, ⟨5, _⟩ => ⟨S512, .f32⟩
  | .hbm, ⟨6, _⟩ => ⟨S128x512, .f32⟩
  | .hbm, ⟨7, _⟩ => ⟨S128, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S1024x512, .f32⟩
  | .hbm, ⟨15, _⟩ => ⟨S1024, .f32⟩
  | .hbm, ⟨16, _⟩ => ⟨S512x512, .f32⟩
  | .hbm, ⟨17, _⟩ => ⟨S512, .f32⟩
  | .hbm, ⟨18, _⟩ => ⟨S512x1024, .f32⟩
  | .hbm, ⟨19, _⟩ => ⟨S512, .f32⟩
  | .hbm, ⟨20, _⟩ => ⟨S1024x1024, .f32⟩
  | .hbm, ⟨21, _⟩ => ⟨S1024, .f32⟩
  | .hbm, ⟨22, _⟩ => ⟨S128x512, .f32⟩
  | .hbm, ⟨23, _⟩ => ⟨S128x512, .bf16⟩
  | .hbm, ⟨24, _⟩ => ⟨S512x512, .f32⟩
  | .hbm, ⟨25, _⟩ => ⟨S512x512, .bf16⟩
  | .hbm, ⟨26, _⟩ => ⟨S512x512, .f32⟩
  | .hbm, ⟨27, _⟩ => ⟨S512x512, .bf16⟩
  | .hbm, ⟨28, _⟩ => ⟨S512x128, .f32⟩
  | .hbm, ⟨29, _⟩ => ⟨S512x128, .bf16⟩
  | .hbm, ⟨30, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S128x512, .bf16⟩
  | .local _ .vmem, ⟨7, _⟩ => ⟨S512, .f32⟩
  | .local _ .vmem, ⟨8, _⟩ => ⟨S512x512, .bf16⟩
  | .local _ .vmem, ⟨9, _⟩ => ⟨S512, .f32⟩
  | .local _ .vmem, ⟨10, _⟩ => ⟨S512x512, .bf16⟩
  | .local _ .vmem, ⟨11, _⟩ => ⟨S512, .f32⟩
  | .local _ .vmem, ⟨12, _⟩ => ⟨S512x128, .bf16⟩
  | .local _ .vmem, ⟨13, _⟩ => ⟨S128, .f32⟩
  | .local _ .vmem, ⟨14, _⟩ => ⟨S1024x128, .f32⟩
  | .local _ .vmem, ⟨15, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S512x128_S128x512_1_0 : S512x128.Transposes [1, 0] S128x512
  bitsLt_bf16_f32 : FTy.bits .bf16 < FTy.bits .f32
  transposes_S512x512_S512x512_1_0 : S512x512.Transposes [1, 0] S512x512
  transposes_S128x512_S512x128_1_0 : S128x512.Transposes [1, 0] S512x128
  inb_S1024x128_S1024x128_0_0 : ∀ a, (![0, 0] : Fin 2 → Nat) a + S1024x128.size a ≤ S1024x128.size a
  h_S1024x128 : 0 < S1024x128.numel
  inb_S1024x512_S1024x512_0_0 : ∀ a, (![0, 0] : Fin 2 → Nat) a + S1024x512.size a ≤ S1024x512.size a
  h_S1024x512 : 0 < S1024x512.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  dot_S1024x128_S128x512_S1024x512_1_0_0_1_n_n_wf : DotDims.WF S1024x128 S128x512 S1024x512 [1] [0] [0] [1] [] []
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S512x128.size a
  hwx0_9 : ∀ i : grid0.Coords, EltTy.bits .bf16 = 32 ∨ (Rect.block (s := S512x128) S512x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x128.size a ≤ S8192x128.size a
  hwx0_11 : ∀ i : grid0.Coords, EltTy.bits .f32 = 32 ∨ (Rect.block (s := S8192x128) S1024x128.size (cc0_transform_11 i) (hinb0_11 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S512x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1024x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x512 : Shape := ⟨2, ![8192, 512]⟩
abbrev S8192x1024 : Shape := ⟨2, ![8192, 1024]⟩
abbrev S512x128 : Shape := ⟨2, ![512, 128]⟩
abbrev S512 : Shape := ⟨1, ![512]⟩
abbrev S128x512 : Shape := ⟨2, ![128, 512]⟩
abbrev S128 : Shape := ⟨1, ![128]⟩
abbrev S512x512 : Shape := ⟨2, ![512, 512]⟩
abbrev S1024x512 : Shape := ⟨2, ![1024, 512]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩
abbrev S1x512 : Shape := ⟨2, ![1, 512]⟩
abbrev S1x1024 : Shape := ⟨2, ![1, 1024]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S512x128, .f32⟩
  | .hbm, ⟨5, _⟩ => ⟨S512, .f32⟩
  | .hbm, ⟨6, _⟩ => ⟨S128x512, .f32⟩
  | .hbm, ⟨7, _⟩ => ⟨S128, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S1024x512, .f32⟩
  | .hbm, ⟨15, _⟩ => ⟨S1024, .f32⟩
  | .hbm, ⟨16, _⟩ => ⟨S512x512, .f32⟩
  | .hbm, ⟨17, _⟩ => ⟨S512, .f32⟩
  | .hbm, ⟨18, _⟩ => ⟨S512x1024, .f32⟩
  | .hbm, ⟨19, _⟩ => ⟨S512, .f32⟩
  | .hbm, ⟨20, _⟩ => ⟨S1024x1024, .f32⟩
  | .hbm, ⟨21, _⟩ => ⟨S1024, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S512x512, .f32⟩
  | .hbm, ⟨26, _⟩ => ⟨S8192x512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S512x512, .f32⟩
  | .hbm, ⟨31, _⟩ => ⟨S8192x512, .f32⟩
  | .hbm, ⟨32, _⟩ => ⟨S1x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S128x512, .f32⟩
  | .hbm, ⟨37, _⟩ => ⟨S8192x512, .f32⟩
  | .hbm, ⟨38, _⟩ => ⟨S1x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192x512, .f32⟩
  | .hbm, ⟨49, _⟩ => ⟨S8192x512, .f32⟩
  | .hbm, ⟨50, _⟩ => ⟨S512x512, .f32⟩
  | .hbm, ⟨51, _⟩ => ⟨S8192x512, .f32⟩
  | .hbm, ⟨52, _⟩ => ⟨S1x512, .f32⟩
  | .hbm, ⟨53, _⟩ => ⟨S8192x512, .f32⟩
  | .hbm, ⟨54, _⟩ => ⟨S8192x512, .f32⟩
  | .hbm, ⟨55, _⟩ => ⟨S1024x512, .f32⟩
  | .hbm, ⟨56, _⟩ => ⟨S8192x512, .f32⟩
  | .hbm, ⟨57, _⟩ => ⟨S1x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S512x512, .f32⟩
  | .hbm, ⟨62, _⟩ => ⟨S8192x512, .f32⟩
  | .hbm, ⟨63, _⟩ => ⟨S1x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S_, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S_, .f32⟩
  | .hbm, ⟨73, _⟩ => ⟨S8192x1024, .f32⟩
  | .hbm, ⟨74, _⟩ => ⟨S8192x1024, .f32⟩
  | .hbm, ⟨75, _⟩ => ⟨S1024x1024, .f32⟩
  | .hbm, ⟨76, _⟩ => ⟨S8192x1024, .f32⟩
  | .hbm, ⟨77, _⟩ => ⟨S1x1024, .f32⟩
  | .hbm, ⟨78, _⟩ => ⟨S8192x1024, .f32⟩
  | .hbm, ⟨79, _⟩ => ⟨S8192x1024, .f32⟩
  | .hbm, ⟨80, _⟩ => ⟨S512x1024, .f32⟩
  | .hbm, ⟨81, _⟩ => ⟨S8192x1024, .f32⟩
  | .hbm, ⟨82, _⟩ => ⟨S1x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S512x128, .f32⟩
  | .hbm, ⟨92, _⟩ => ⟨S8192x128, .f32⟩
  | .hbm, ⟨93, _⟩ => ⟨S1x128, .f32⟩
  | .hbm, ⟨94, _⟩ => ⟨S8192x128, .f32⟩
  | .hbm, ⟨95, _⟩ => ⟨S8192x128, .f32⟩
  | .hbm, ⟨96, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_1 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_2 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_3 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_4 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]

class Facts₀ : Prop where
  bcast_S_S8192x512 : S_.BroadcastsInDim S8192x512 (![] : Fin 0 → Fin S8192x512.rank)
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S512x128_S128x512_1_0 : S512x128.Transposes [1, 0] S128x512
  transposes_S512x1024_S1024x512_1_0 : S512x1024.Transposes [1, 0] S1024x512
  bcast_S_S8192x1024 : S_.BroadcastsInDim S8192x1024 (![] : Fin 0 → Fin S8192x1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S1024x512_S512x1024_1_0 : S1024x512.Transposes [1, 0] S512x1024
  transposes_S128x512_S512x128_1_0 : S128x512.Transposes [1, 0] S512x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x512_S512x512_S8192x512_1_0_0_1_n_n_wf : DotDims.WF S8192x512 S512x512 S8192x512 [1] [0] [0] [1] [] []
  dot_S8192x128_S128x512_S8192x512_1_0_0_1_n_n_wf : DotDims.WF S8192x128 S128x512 S8192x512 [1] [0] [0] [1] [] []
  dot_S8192x1024_S1024x512_S8192x512_1_0_0_1_n_n_wf : DotDims.WF S8192x1024 S1024x512 S8192x512 [1] [0] [0] [1] [] []
  dot_S8192x1024_S1024x1024_S8192x1024_1_0_0_1_n_n_wf : DotDims.WF S8192x1024 S1024x1024 S8192x1024 [1] [0] [0] [1] [] []
  dot_S8192x512_S512x1024_S8192x1024_1_0_0_1_n_n_wf : DotDims.WF S8192x512 S512x1024 S8192x1024 [1] [0] [0] [1] [] []
  dot_S8192x512_S512x128_S8192x128_1_0_0_1_n_n_wf : DotDims.WF S8192x512 S512x128 S8192x128 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x128_S128x512_S8192x512_1_0_0_1_n_n : DotDims S8192x128 S128x512 S8192x512 where
  lhsContracting := [1]
  rhsContracting := [0]
  lhsNonContracting := [0]
  rhsNonContracting := [1]
  lhsBatch := []
  rhsBatch := []
  wf := dot_S8192x128_S128x512_S8192x512_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf

class Facts : Prop extends Facts₀ where

variable [Facts]
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.LibDenseBlock.lean ====
/-
  A dense layer on a block of rows, read at an index, at the ideal values.

  For dimension numbers `d` over shapes [M, K] × [K, N] → [M, N] with no batch axis, the left operand's axis 0 and the
  right operand's axis 1 kept and the left axis 1 contracted with the right axis 0, the record's index maps send the
  result index (p, o) and the contraction position k to (p, k) on the left and (k, o) on the right. Hence the product
  accumulated into zero is the plain sum `∑ k, A (p, k) · B (k, o)`, and with a bias vector of length N laid over the
  M rows the layer reads `(∑ k, A (p, k) · B (k, o)) + b o`. Everything is stated for an arbitrary record through its six
  axis lists, so it serves a record of any name and any sizes.
-/
import proofs.«167018_j9929964389009_1_alg».proof.Proof.LibPlainMatmul
import Idealize.ShloMosaic.Lib.ValueLayout
import Idealize.ShloMosaic.Lib.Pipeline.Value

noncomputable section

open scoped BigOperators
open Idealize.ShloMosaic Idealize.ShloMosaic.ValueIdx

namespace Cert.LibDenseBlock

variable {M K N : ℕ} (d : DotDims ⟨2, ![M, K]⟩ ⟨2, ![K, N]⟩ ⟨2, ![M, N]⟩)

/-- Two spellings of one coordinate of an index agree. -/
theorem coord_congr {s : Shape} (i : s.Idx) (p q : ℕ) (hp : p < s.rank) (hq : q < s.rank) (h : p = q) :
    (i ⟨p, hp⟩).val = (i ⟨q, hq⟩).val := by subst h; rfl

/-- With no batch axis and the left axis 0 the first kept one, the left index's row is the result's row. -/
theorem lhs_row (hlb : d.lhsBatch = []) (hln : d.lhsNonContracting = [0])
    (i : (⟨2, ![M, N]⟩ : Shape).Idx) (q : d.contr.Idx) : (d.lhsIdx i q 0).val = (i 0).val := by
  unfold DotDims.lhsIdx
  rw [dif_neg (by rw [hlb]; exact List.not_mem_nil), dif_pos (by rw [hln]; exact List.mem_singleton.2 rfl)]
  simp only [Fin.val_cast]
  exact coord_congr i _ _ _ _ (by simp [hlb, hln])

/-- With no batch axis, one kept left axis and the right axis 1 kept, the right index's column is the result's column. -/
theorem rhs_col (hlb : d.lhsBatch = []) (hln : d.lhsNonContracting = [0]) (hrb : d.rhsBatch = [])
    (hrn : d.rhsNonContracting = [1]) (i : (⟨2, ![M, N]⟩ : Shape).Idx) (q : d.contr.Idx) :
    (d.rhsIdx i q 1).val = (i 1).val := by
  unfold DotDims.rhsIdx
  rw [dif_neg (by rw [hrb]; exact List.not_mem_nil), dif_pos (by rw [hrn]; exact List.mem_singleton.2 rfl)]
  simp only [Fin.val_cast]
  exact coord_congr i _ _ _ _ (by simp [hlb, hln, hrn])

/-- The product into zero, read at `(p, o)`, for a record given by its axis lists. -/
theorem matmul_zero_apply {φ₁ φ₂ : FTy} (prec : Option ContractPrecision)
    (hr : d.contr.rank = 1) (hs : d.contr.size ⟨0, by omega⟩ = K)
    (hlb : d.lhsBatch = []) (hln : d.lhsNonContracting = [0]) (hlc : d.lhsContracting = [1])
    (hrb : d.rhsBatch = []) (hrn : d.rhsNonContracting = [1]) (hrc : d.rhsContracting = [0])
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) :=
  Cert.LibPlainMatmul.matmul_zero_apply d prec hr hs (lhs_row d hlb hln)
    (fun i q => d.lhsIdx_val_of_single hlc i q) (fun i q => d.rhsIdx_val_of_single hrc i q)
    (rhs_col d hlb hln hrb hrn) A B p o

/-- The layer: the product into zero of a block with a weight (passed through a cast to its own shape), plus a bias
    vector cast to one row and laid over the block's rows, read at `(p, o)`. -/
theorem dense_apply {φ₁ φ₂ : FTy} (prec : Option ContractPrecision)
    (hr : d.contr.rank = 1) (hs : d.contr.size ⟨0, by omega⟩ = K)
    (hlb : d.lhsBatch = []) (hln : d.lhsNonContracting = [0]) (hlc : d.lhsContracting = [1])
    (hrb : d.rhsBatch = []) (hrn : d.rhsNonContracting = [1]) (hrc : d.rhsContracting = [0])
    (A : FVec Ideal ⟨2, ![M, K]⟩ φ₁) (B : FVec Ideal ⟨2, ![K, N]⟩ φ₂) (b : FVec Ideal ⟨1, ![N]⟩ .f32)
    (hB : (⟨2, ![K, N]⟩ : Shape).ShapeCasts ⟨2, ![K, N]⟩) (hb₁ : (⟨1, ![N]⟩ : Shape).ShapeCasts ⟨2, ![1, N]⟩)
    (hb₂ : (⟨2, ![1, N]⟩ : Shape).Broadcasts ⟨2, ![M, N]⟩) (p : Fin M) (o : Fin N) :
    addf (matmul d prec A (shapeCast ⟨2, ![K, N]⟩ B hB) (constant (F := Ideal) ⟨2, ![M, N]⟩ .f32 0x00000000#32))
        (broadcastTo ⟨2, ![M, N]⟩ (shapeCast ⟨2, ![1, N]⟩ b hb₁) hb₂) (ix2 p o)
      = (∑ k : Fin K, A (ix2 p k) * B (ix2 k o)) + b (ix1 o) := by
  rw [addf_apply, shapeCast_self, broadcastTo_1b_ab_apply, shapeCast_a_1a_apply]
  exact congrArg (· + b (ix1 o)) (matmul_zero_apply d prec hr hs hlb hln hlc hrb hrn hrc A B p o)

end Cert.LibDenseBlock

end
-- ==== Proof.Spec.lean ====
/-
  The function both programs compute, entry by entry, on the extended reals.

  A recurrent cell with three leaky-integrated branches, of which only the fastest one feeds the returned value. Writing
  `lin a W b (r, k) = ∑ j, a (r, j) · W (k, j) + b k` for a dense layer whose weight is stored [out, in],

    hid (r, k) = tanh (½ · io (r, k) + (lin x Wx bx (r, k) + lin io Wio bio (r, k) + lin cf Wcf bcf (r, k)) / 2)
    out (r, o) = tanh (lin hid Wo bo (r, o))

  with ½ and 2 the exact binary values of the two printed words (the same words in both programs, never evaluated). The
  kernel adds the three layers as (x + io) + cf, the reference as (io + cf) + x: addition of extended reals is commutative
  and associative with no side condition, so the two agree at the infinities as well (`sum3_reorder`).
-/
import Idealize.ShloMosaic.PureOps.Ideal
import Idealize.ShloMosaic.Lib.ValueIdx

noncomputable section

open scoped BigOperators
open Idealize.ShloMosaic Idealize.ShloMosaic.ValueIdx

namespace Cert.Mtrnn

/-- The printed word of one half, at the ideal values. -/
abbrev half : EReal := Ideal.ofBits .f32 0x3F000000#32
/-- The printed word of two, at the ideal values. -/
abbrev two : EReal := Ideal.ofBits .f32 0x40000000#32

/-- A dense layer's entry: row `r` of the activations against row `k` of a weight stored [out, in], plus the bias. -/
def lin {B I O : ℕ} (a : (⟨2, ![B, I]⟩ : Shape).Idx → EReal) (W : (⟨2, ![O, I]⟩ : Shape).Idx → EReal)
    (b : (⟨1, ![O]⟩ : Shape).Idx → EReal) (r : Fin B) (k : Fin O) : EReal :=
  (∑ j : Fin I, a (ix2 r j) * W (ix2 k j)) + b (ix1 k)

/-- The new fast state at row `r`, unit `k`: the leaky integration of the old state with the three layers' mean-free sum. -/
def hid (x : (⟨2, ![8192, 128]⟩ : Shape).Idx → EReal) (io cf : (⟨2, ![8192, 512]⟩ : Shape).Idx → EReal)
    (Wx : (⟨2, ![512, 128]⟩ : Shape).Idx → EReal) (bx : (⟨1, ![512]⟩ : Shape).Idx → EReal)
    (Wio : (⟨2, ![512, 512]⟩ : Shape).Idx → EReal) (bio : (⟨1, ![512]⟩ : Shape).Idx → EReal)
    (Wcf : (⟨2, ![512, 512]⟩ : Shape).Idx → EReal) (bcf : (⟨1, ![512]⟩ : Shape).Idx → EReal)
    (r : Fin 8192) (k : Fin 512) : EReal :=
  Ideal.tanh (half * io (ix2 r k)
    + Ideal.div ((lin x Wx bx r k + lin io Wio bio r k) + lin cf Wcf bcf r k) two)

/-- The returned array: the output layer of the new fast state, through tanh. -/
def out (x : (⟨2, ![8192, 128]⟩ : Shape).Idx → EReal) (io cf : (⟨2, ![8192, 512]⟩ : Shape).Idx → EReal)
    (Wx : (⟨2, ![512, 128]⟩ : Shape).Idx → EReal) (bx : (⟨1, ![512]⟩ : Shape).Idx → EReal)
    (Wio : (⟨2, ![512, 512]⟩ : Shape).Idx → EReal) (bio : (⟨1, ![512]⟩ : Shape).Idx → EReal)
    (Wcf : (⟨2, ![512, 512]⟩ : Shape).Idx → EReal) (bcf : (⟨1, ![512]⟩ : Shape).Idx → EReal)
    (Wo : (⟨2, ![128, 512]⟩ : Shape).Idx → EReal) (bo : (⟨1, ![128]⟩ : Shape).Idx → EReal) :
    (⟨2, ![8192, 128]⟩ : Shape).Idx → EReal := fun i =>
  Ideal.tanh ((∑ k : Fin 512, hid x io cf Wx bx Wio bio Wcf bcf (i 0) k * Wo (ix2 (i 1) k)) + bo (ix1 (i 1)))

/-- Three summands in the reference's order are the same three in the kernel's order: commutativity and associativity
    of the extended reals' addition, which hold at the infinities too. -/
theorem sum3_reorder (a b c : EReal) : (b + c) + a = (a + b) + c := by
  rw [add_comm (b + c) a, add_assoc]

end Cert.Mtrnn

end
-- ==== Proof.Payload.lean ====
/-
  The kernel body's two payloads, read at an index, at the ideal values.

  Inside one grid point the body holds a block of 1024 rows of each activation and the whole of each (pre-transposed)
  weight. Its first payload is the new fast state on those rows: at row `p`, unit `k`,
    tanh (½ · io (p, k) + (((∑ j, x (p, j) · Wx (j, k)) + bx k) + ((∑ j, io (p, j) · Wio (j, k)) + bio k)
                            + ((∑ j, cf (p, j) · Wcf (j, k)) + bcf k)) / 2),
  each matrix product accumulated into zero, each bias a row laid over the 1024 rows, and the narrowing to the 16-bit
  format the identity. Its second payload is the output layer of that state: tanh ((∑ k, h (p, k) · Wo (k, o)) + bo o).
  Each of the four layers is one instance of the dense layer on a block (three contraction records: the input layer's, the
  two recurrent layers' shared one, the output layer's), each record given by its printed axis lists.
-/
import proofs.«167018_j9929964389009_1_alg».proof.Proof.Gen.KernelIdeal.Skeleton
import proofs.«167018_j9929964389009_1_alg».proof.Proof.LibDenseBlock
import proofs.«167018_j9929964389009_1_alg».proof.Proof.Spec

noncomputable section

open scoped BigOperators
open Idealize.ShloMosaic Idealize.ShloMosaic.ValueIdx

namespace Cert.KernelIdeal.Body

open Cert.KernelIdeal Cert.KernelIdeal.Gen Cert.Mtrnn Cert.LibDenseBlock

/-- The new fast state on a block of rows, at row `p` and unit `k`. -/
theorem state_apply (v0 : Vec Ideal S1024x128 .f32) (v2 v3 : Vec Ideal S1024x512 .f32) (v4 : Vec Ideal S128x512 .bf16)
    (v7 : Vec Ideal S512 .f32) (v12 : Vec Ideal S512x512 .bf16) (v15 : Vec Ideal S512 .f32) (v20 : Vec Ideal S512x512 .bf16)
    (v23 : Vec Ideal S512 .f32) (p : Fin 1024) (k : Fin 512) :
    k0_pay2 (F := Ideal) v0 v2 v3 v4 v7 v12 v15 v20 v23 (ix2 p k)
      = Ideal.tanh (half * v2 (ix2 p k)
          + Ideal.div ((((∑ j : Fin 128, v0 (ix2 p j) * v4 (ix2 j k)) + v7 (ix1 k))
              + ((∑ j : Fin 512, v2 (ix2 p j) * v12 (ix2 j k)) + v15 (ix1 k)))
            + ((∑ j : Fin 512, v3 (ix2 p j) * v20 (ix2 j k)) + v23 (ix1 k))) two) := by
  unfold k0_pay2
  show Ideal.tanh (half * v2 (ix2 p k) + Ideal.div ((_ + _) + _) two) = _
  refine congrArg Ideal.tanh (congrArg (half * v2 (ix2 p k) + ·) (congrArg (Ideal.div · two)
    (congrArg₂ (· + ·) (congrArg₂ (· + ·) ?_ ?_) ?_)))
  · exact dense_apply dot_S1024x128_S128x512_S1024x512_1_0_0_1_n_n none rfl rfl rfl rfl rfl rfl rfl rfl _ v4 v7 _ _ _ p k
  · exact dense_apply dot_S1024x512_S512x512_S1024x512_1_0_0_1_n_n none rfl rfl rfl rfl rfl rfl rfl rfl _ v12 v15 _ _ _ p k
  · exact dense_apply dot_S1024x512_S512x512_S1024x512_1_0_0_1_n_n none rfl rfl rfl rfl rfl rfl rfl rfl _ v20 v23 _ _ _ p k

/-- The output layer of a state block, through tanh, at row `p` and output `o`. -/
theorem result_apply (h : FVec Ideal S1024x512 .bf16) (v36 : Vec Ideal S512x128 .bf16) (v39 : Vec Ideal S128 .f32)
    (p : Fin 1024) (o : Fin 128) :
    k0_pay1 (F := Ideal) h v36 v39 (ix2 p o) = Ideal.tanh ((∑ k : Fin 512, h (ix2 p k) * v36 (ix2 k o)) + v39 (ix1 o)) := by
  unfold k0_pay1
  show Ideal.tanh _ = _
  exact congrArg Ideal.tanh (dense_apply dot_S1024x512_S512x128_S1024x128_1_0_0_1_n_n none rfl rfl rfl rfl rfl rfl rfl rfl h v36 v39 _ _ _ p o)

end Cert.KernelIdeal.Body

end
-- ==== Proof.Whole.lean ====
/-
  The kernel's result array after its run is the specification of the argument arrays.

  The grid has eight points; point `t` stages rows 1024·t … 1024·t + 1023 of the three activations it reads and of the
  output, and the whole of every weight and bias. The four weights reach the region already transposed by the host (and
  narrowed to the 16-bit format, the identity at the ideal values), so a weight block at (j, k) is the argument at (k, j).
  With each block read back as entries of the arguments, the body's two payloads on point `t`'s blocks are the
  specification's fast state and output on rows 1024·t + p; each point writes its 1024 rows back, the eight blocks are
  disjoint and cover the 8192 rows, so the array ends holding the specification everywhere.
-/
import proofs.«167018_j9929964389009_1_alg».proof.Proof.Gen.KernelIdeal.Value
import proofs.«167018_j9929964389009_1_alg».proof.Proof.Payload
import Idealize.ShloMosaic.Lib.StableHlo.Run
import Idealize.ShloMosaic.Lib.Pipeline.Value
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.Mtrnn

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## The weights as the region finds them: the arguments transposed by the host -/

theorem V_wx (c : Dev nD) : @Eq (FVec Ideal S128x512 .bf16) (V m c main_v1)
    (truncf (F := Ideal) .bf16 (transpose S128x512 [1, 0] (m ((c : Thread nD τ).loc main_arg4)) transposes_S512x128_S128x512_1_0) bitsLt_bf16_f32) := by
  dsimp only [V, hostOps0]
  after_results

theorem V_wio (c : Dev nD) : @Eq (FVec Ideal S512x512 .bf16) (V m c main_v3)
    (truncf (F := Ideal) .bf16 (transpose S512x512 [1, 0] (m ((c : Thread nD τ).loc main_arg8)) transposes_S512x512_S512x512_1_0) bitsLt_bf16_f32) := by
  dsimp only [V, hostOps0]
  after_results

theorem V_wcf (c : Dev nD) : @Eq (FVec Ideal S512x512 .bf16) (V m c main_v5)
    (truncf (F := Ideal) .bf16 (transpose S512x512 [1, 0] (m ((c : Thread nD τ).loc main_arg12)) transposes_S512x512_S512x512_1_0) bitsLt_bf16_f32) := by
  dsimp only [V, hostOps0]
  after_results

theorem V_wo (c : Dev nD) : @Eq (FVec Ideal S512x128 .bf16) (V m c main_v7)
    (truncf (F := Ideal) .bf16 (transpose S512x128 [1, 0] (m ((c : Thread nD τ).loc main_arg6)) transposes_S128x512_S512x128_1_0) bitsLt_bf16_f32) := by
  dsimp only [V, hostOps0]
  after_results

/-! ## The printed index maps, decided over the eight points -/

/-- The three activations and the output move one block of rows per point. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0 :=
  (by decide +kernel : ∀ t : Fin grid0.N, _)

/-- Every weight is staged whole at every point. -/
theorem idx_weights : ∀ t : Fin cfg0.N, win0_3.index t (0 : Fin 2) = 0 ∧ win0_3.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_9.index t (0 : Fin 2) = 0 ∧ win0_9.index t (1 : Fin 2) = 0 :=
  (by decide +kernel : ∀ t : Fin grid0.N, _)

/-- Every bias is staged whole at every point. -/
theorem idx_biases : ∀ t : Fin cfg0.N, win0_4.index t (0 : Fin 1) = 0 ∧ win0_6.index t (0 : Fin 1) = 0
    ∧ win0_8.index t (0 : Fin 1) = 0 ∧ win0_10.index t (0 : Fin 1) = 0 :=
  (by decide +kernel : ∀ t : Fin grid0.N, _)

/-! ## Each block read back as entries of the arguments -/

/-- Row `p` of point `t`'s input block is row `1024·t + p` of the input. -/
theorem xblk_apply (c : Dev nD) (t : Fin cfg0.N) (p : Fin 1024) (j : Fin 128) (r : Fin 8192) (hr : r.val = t.val * 1024 + p.val) :
    (iblk m c 0 t : Vec Ideal S1024x128 .f32) (ix2 p j) = ((m ((c : Thread nD τ).loc main_arg0)) : S8192x128.Idx → EReal) (ix2 r j) := by
  unfold iblk
  rw [View.read_apply]
  show V m c main_arg0 _ = _
  rw [V_main_arg0]
  obtain ⟨e0, e1, -⟩ := idx_rows t
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 128 + 1 * j.val = j.val; rw [e1]; omega

/-- Row `p` of point `t`'s block of the old fast state is row `1024·t + p` of it. -/
theorem ioblk_apply (c : Dev nD) (t : Fin cfg0.N) (p : Fin 1024) (j : Fin 512) (r : Fin 8192) (hr : r.val = t.val * 1024 + p.val) :
    (iblk m c 1 t : Vec Ideal S1024x512 .f32) (ix2 p j) = ((m ((c : Thread nD τ).loc main_arg1)) : S8192x512.Idx → EReal) (ix2 r j) := by
  unfold iblk
  rw [View.read_apply]
  show V m c main_arg1 _ = _
  rw [V_main_arg1]
  obtain ⟨-, -, e0, e1, -⟩ := idx_rows t
  refine congrArg _ (funext fun a => Fin.ext ?_)
  match a with
  | ⟨0, _⟩ => show win0_1.index t (0 : Fin 2) * 1024 + 1 * p.val = r.val; rw [e0, hr]; omega
  | ⟨1, _⟩ => show win0_1.index t (1 : Fin 2) * 512 + 1 * j.val = j.val; rw [e1]; omega

/-- Row `p` of point `t`'s block of the old middle state is row `1024·t + p` of it. -/
theorem cfblk_apply (c : Dev nD) (t : Fin cfg0.N) (p : Fin 1024) (j : Fin 512) (r : Fin 8192) (hr : r.val = t.val * 1024 + p.val) :
    (iblk m c 2 t : Vec Ideal S1024x512 .f32) (ix2 p j) = ((m ((c : Thread nD τ).loc main_arg2)) : S8192x512.Idx → EReal) (ix2 r j) := by
  unfold iblk
  rw [View.read_apply]
  show V m c main_arg2 _ = _
  rw [V_main_arg2]
  obtain ⟨-, -, -, -, e0, e1, -⟩ := idx_rows t
  refine congrArg _ (funext fun a => Fin.ext ?_)
  match a with
  | ⟨0, _⟩ => show win0_2.index t (0 : Fin 2) * 1024 + 1 * p.val = r.val; rw [e0, hr]; omega
  | ⟨1, _⟩ => show win0_2.index t (1 : Fin 2) * 512 + 1 * j.val = j.val; rw [e1]; omega

/-- The input layer's weight block at `(j, k)` is the argument at `(k, j)`. -/
theorem wxblk_apply (c : Dev nD) (t : Fin cfg0.N) (j : Fin 128) (k : Fin 512) :
    (iblk m c 3 t : Vec Ideal S128x512 .bf16) (ix2 j k) = ((m ((c : Thread nD τ).loc main_arg4)) : S512x128.Idx → EReal) (ix2 k j) := by
  unfold iblk
  rw [View.read_apply]
  show V m c main_v1 _ = _
  obtain ⟨e0, e1, -⟩ := idx_weights t
  have he : ((cfg0.win 3).blk t).view.emb (ix2 j k) = ix2 j k := funext fun a => Fin.ext (by
    match a with
    | ⟨0, _⟩ => show win0_3.index t (0 : Fin 2) * 128 + 1 * j.val = j.val; rw [e0]; omega
    | ⟨1, _⟩ => show win0_3.index t (1 : Fin 2) * 512 + 1 * k.val = k.val; rw [e1]; omega)
  rw [he, V_wx]
  exact transpose_ix2_apply _ _ j k

/-- The fast state's recurrent weight block at `(j, k)` is the argument at `(k, j)`. -/
theorem wioblk_apply (c : Dev nD) (t : Fin cfg0.N) (j : Fin 512) (k : Fin 512) :
    (iblk m c 5 t : Vec Ideal S512x512 .bf16) (ix2 j k) = ((m ((c : Thread nD τ).loc main_arg8)) : S512x512.Idx → EReal) (ix2 k j) := by
  unfold iblk
  rw [View.read_apply]
  show V m c main_v3 _ = _
  obtain ⟨-, -, e0, e1, -⟩ := idx_weights t
  have he : ((cfg0.win 5).blk t).view.emb (ix2 j k) = ix2 j k := funext fun a => Fin.ext (by
    match a with
    | ⟨0, _⟩ => show win0_5.index t (0 : Fin 2) * 512 + 1 * j.val = j.val; rw [e0]; omega
    | ⟨1, _⟩ => show win0_5.index t (1 : Fin 2) * 512 + 1 * k.val = k.val; rw [e1]; omega)
  rw [he, V_wio]
  exact transpose_ix2_apply _ _ j k

/-- The middle-to-fast weight block at `(j, k)` is the argument at `(k, j)`. -/
theorem wcfblk_apply (c : Dev nD) (t : Fin cfg0.N) (j : Fin 512) (k : Fin 512) :
    (iblk m c 7 t : Vec Ideal S512x512 .bf16) (ix2 j k) = ((m ((c : Thread nD τ).loc main_arg12)) : S512x512.Idx → EReal) (ix2 k j) := by
  unfold iblk
  rw [View.read_apply]
  show V m c main_v5 _ = _
  obtain ⟨-, -, -, -, e0, e1, -⟩ := idx_weights t
  have he : ((cfg0.win 7).blk t).view.emb (ix2 j k) = ix2 j k := funext fun a => Fin.ext (by
    match a with
    | ⟨0, _⟩ => show win0_7.index t (0 : Fin 2) * 512 + 1 * j.val = j.val; rw [e0]; omega
    | ⟨1, _⟩ => show win0_7.index t (1 : Fin 2) * 512 + 1 * k.val = k.val; rw [e1]; omega)
  rw [he, V_wcf]
  exact transpose_ix2_apply _ _ j k

/-- The output layer's weight block at `(k, o)` is the argument at `(o, k)`. -/
theorem woblk_apply (c : Dev nD) (t : Fin cfg0.N) (k : Fin 512) (o : Fin 128) :
    (iblk m c 9 t : Vec Ideal S512x128 .bf16) (ix2 k o) = ((m ((c : Thread nD τ).loc main_arg6)) : S128x512.Idx → EReal) (ix2 o k) := by
  unfold iblk
  rw [View.read_apply]
  show V m c main_v7 _ = _
  obtain ⟨-, -, -, -, -, -, e0, e1⟩ := idx_weights t
  have he : ((cfg0.win 9).blk t).view.emb (ix2 k o) = ix2 k o := funext fun a => Fin.ext (by
    match a with
    | ⟨0, _⟩ => show win0_9.index t (0 : Fin 2) * 512 + 1 * k.val = k.val; rw [e0]; omega
    | ⟨1, _⟩ => show win0_9.index t (1 : Fin 2) * 128 + 1 * o.val = o.val; rw [e1]; omega)
  rw [he, V_wo]
  exact transpose_ix2_apply _ _ k o

/-- The input layer's bias block is the argument. -/
theorem bxblk_apply (c : Dev nD) (t : Fin cfg0.N) (k : Fin 512) :
    (iblk m c 4 t : Vec Ideal S512 .f32) (ix1 k) = ((m ((c : Thread nD τ).loc main_arg5)) : S512.Idx → EReal) (ix1 k) := by
  unfold iblk
  rw [View.read_apply]
  show V m c main_arg5 _ = _
  rw [V_main_arg5]
  obtain ⟨e0, -⟩ := idx_biases t
  refine congrArg _ (funext fun a => Fin.ext ?_)
  match a with
  | ⟨0, _⟩ => show win0_4.index t (0 : Fin 1) * 512 + 1 * k.val = k.val; rw [e0]; omega

/-- The fast state's recurrent bias block is the argument. -/
theorem bioblk_apply (c : Dev nD) (t : Fin cfg0.N) (k : Fin 512) :
    (iblk m c 6 t : Vec Ideal S512 .f32) (ix1 k) = ((m ((c : Thread nD τ).loc main_arg9)) : S512.Idx → EReal) (ix1 k) := by
  unfold iblk
  rw [View.read_apply]
  show V m c main_arg9 _ = _
  rw [V_main_arg9]
  obtain ⟨-, e0, -⟩ := idx_biases t
  refine congrArg _ (funext fun a => Fin.ext ?_)
  match a with
  | ⟨0, _⟩ => show win0_6.index t (0 : Fin 1) * 512 + 1 * k.val = k.val; rw [e0]; omega

/-- The middle-to-fast bias block is the argument. -/
theorem bcfblk_apply (c : Dev nD) (t : Fin cfg0.N) (k : Fin 512) :
    (iblk m c 8 t : Vec Ideal S512 .f32) (ix1 k) = ((m ((c : Thread nD τ).loc main_arg13)) : S512.Idx → EReal) (ix1 k) := by
  unfold iblk
  rw [View.read_apply]
  show V m c main_arg13 _ = _
  rw [V_main_arg13]
  obtain ⟨-, -, e0, -⟩ := idx_biases t
  refine congrArg _ (funext fun a => Fin.ext ?_)
  match a with
  | ⟨0, _⟩ => show win0_8.index t (0 : Fin 1) * 512 + 1 * k.val = k.val; rw [e0]; omega

/-- The output layer's bias block is the argument. -/
theorem boblk_apply (c : Dev nD) (t : Fin cfg0.N) (o : Fin 128) :
    (iblk m c 10 t : Vec Ideal S128 .f32) (ix1 o) = ((m ((c : Thread nD τ).loc main_arg7)) : S128.Idx → EReal) (ix1 o) := by
  unfold iblk
  rw [View.read_apply]
  show V m c main_arg7 _ = _
  rw [V_main_arg7]
  obtain ⟨-, -, -, e0⟩ := idx_biases t
  refine congrArg _ (funext fun a => Fin.ext ?_)
  match a with
  | ⟨0, _⟩ => show win0_10.index t (0 : Fin 1) * 128 + 1 * o.val = o.val; rw [e0]; omega

/-! ## The payloads on a point's blocks are the specification on that point's rows -/

/-- The specification of the arguments on core `c`. -/
abbrev result (c : Dev nD) : Buf (Elt Ideal) ((c : Thread nD τ).loc main_v8) :=
  out (m ((c : Thread nD τ).loc main_arg0)) (m ((c : Thread nD τ).loc main_arg1)) (m ((c : Thread nD τ).loc main_arg2)) (m ((c : Thread nD τ).loc main_arg4)) (m ((c : Thread nD τ).loc main_arg5))
    (m ((c : Thread nD τ).loc main_arg8)) (m ((c : Thread nD τ).loc main_arg9)) (m ((c : Thread nD τ).loc main_arg12)) (m ((c : Thread nD τ).loc main_arg13)) (m ((c : Thread nD τ).loc main_arg6)) (m ((c : Thread nD τ).loc main_arg7))

/-- The first payload on point `t`'s blocks, at row `p`, is the specification's fast state at row `1024·t + p`. -/
theorem state_blk (c : Dev nD) (t : Fin cfg0.N) (p : Fin 1024) (k : Fin 512) (r : Fin 8192) (hr : r.val = t.val * 1024 + p.val) :
    k0_pay2 (F := Ideal) (iblk m c 0 t) (iblk m c 1 t) (iblk m c 2 t) (iblk m c 3 t) (iblk m c 4 t) (iblk m c 5 t)
        (iblk m c 6 t) (iblk m c 7 t) (iblk m c 8 t) (ix2 p k)
      = hid (m ((c : Thread nD τ).loc main_arg0)) (m ((c : Thread nD τ).loc main_arg1)) (m ((c : Thread nD τ).loc main_arg2)) (m ((c : Thread nD τ).loc main_arg4)) (m ((c : Thread nD τ).loc main_arg5))
          (m ((c : Thread nD τ).loc main_arg8)) (m ((c : Thread nD τ).loc main_arg9)) (m ((c : Thread nD τ).loc main_arg12)) (m ((c : Thread nD τ).loc main_arg13)) r k := by
  refine (Body.state_apply (iblk m c 0 t) (iblk m c 1 t) (iblk m c 2 t) (iblk m c 3 t) (iblk m c 4 t) (iblk m c 5 t)
    (iblk m c 6 t) (iblk m c 7 t) (iblk m c 8 t) p k).trans ?_
  unfold hid lin
  rw [ioblk_apply m c t p k r hr, bxblk_apply m c t k, bioblk_apply m c t k, bcfblk_apply m c t k]
  refine congrArg Ideal.tanh (congrArg (half * _ + ·) (congrArg (Ideal.div · two)
    (congrArg₂ (· + ·) (congrArg₂ (· + ·) (congrArg (· + _) ?_) (congrArg (· + _) ?_)) (congrArg (· + _) ?_))))
  · exact Finset.sum_congr rfl fun j _ => by rw [xblk_apply m c t p j r hr, wxblk_apply m c t j k]
  · exact Finset.sum_congr rfl fun j _ => by rw [ioblk_apply m c t p j r hr, wioblk_apply m c t j k]
  · exact Finset.sum_congr rfl fun j _ => by rw [cfblk_apply m c t p j r hr, wcfblk_apply m c t j k]

/-- The second payload on point `t`'s blocks, at row `p`, is the specification at row `1024·t + p`. -/
theorem result_blk (c : Dev nD) (t : Fin cfg0.N) (p : Fin 1024) (o : Fin 128) (r : Fin 8192) (hr : r.val = t.val * 1024 + p.val) :
    k0_pay1 (F := Ideal) (k0_pay2 (iblk m c 0 t) (iblk m c 1 t) (iblk m c 2 t) (iblk m c 3 t) (iblk m c 4 t) (iblk m c 5 t)
        (iblk m c 6 t) (iblk m c 7 t) (iblk m c 8 t)) (iblk m c 9 t) (iblk m c 10 t) (ix2 p o)
      = result m c (ix2 r o) := by
  refine (Body.result_apply _ (iblk m c 9 t) (iblk m c 10 t) p o).trans ?_
  show _ = Ideal.tanh ((∑ k : Fin 512, hid _ _ _ _ _ _ _ _ _ r k * _) + _)
  refine congrArg Ideal.tanh (congrArg₂ (· + ·) (Finset.sum_congr rfl fun k _ => ?_) ?_)
  · rw [state_blk m c t p k r hr, woblk_apply m c t k o]
  · exact boblk_apply m c t o

/-! ## From the eight blocks to the array -/

/-- What point `t` writes back is block `t` of the specification. -/
theorem flushed_eq (c : Dev nD) (t : Fin cfg0.N) :
    (dats m 0 c).flushed 11 t = ((cfg0.win 11).blk t).view.read (Elt Ideal) (result m c) := by
  rw [Value.flushed11]
  unfold out0_11
  rw [View.canon_unit_zero hz2]
  simp only [View.ld_unit_zero (S := S1024x128) hz2, View.ld_unit_zero (S := S1024x512) hz2, View.ld_unit_zero (S := S128x512) hz2,
    View.ld_unit_zero (S := S512) hz1, View.ld_unit_zero (S := S512x512) hz2, View.ld_unit_zero (S := S512x128) hz2, View.ld_unit_zero (S := S128) hz1]
  funext y
  obtain ⟨p, o, rfl⟩ : ∃ (p : Fin 1024) (o : Fin 128), y = ix2 p o := ⟨y 0, y 1, eq_ix2 y⟩
  obtain ⟨-, -, -, -, -, -, e0, e1⟩ := idx_rows t
  have hN : t.val < 8 := Nat.lt_of_lt_of_eq t.isLt N_0
  have he : ((cfg0.win 11).blk t).view.emb (ix2 p o) = ix2 (⟨t.val * 1024 + p.val, by omega⟩ : Fin 8192) o := funext fun a => Fin.ext (by
    match a with
    | ⟨0, _⟩ => show win0_11.index t (0 : Fin 2) * 1024 + 1 * p.val = t.val * 1024 + p.val; rw [e0]; omega
    | ⟨1, _⟩ => show win0_11.index t (1 : Fin 2) * 128 + 1 * o.val = o.val; rw [e1]; omega)
  show k0_pay1 (F := Ideal) (k0_pay2 (iblk m c 0 t) (iblk m c 1 t) (iblk m c 2 t) (iblk m c 3 t) (iblk m c 4 t) (iblk m c 5 t)
      (iblk m c 6 t) (iblk m c 7 t) (iblk m c 8 t)) (iblk m c 9 t) (iblk m c 10 t) (ix2 p o)
    = result m c (((cfg0.win 11).blk t).view.emb (ix2 p o))
  rw [he]
  exact result_blk m c t p o _ rfl

/-- An index of the array is in point `t`'s block iff each coordinate is in the block's range on its axis. -/
theorem mem_blk (t : Fin cfg0.N) (i : S8192x128.Idx) :
    i ∈ ((cfg0.win 11).blk t).view.set ↔ ∀ a : Fin 2, win0_11.index t a * S1024x128.size a ≤ (i a).val ∧ (i a).val < win0_11.index t a * S1024x128.size a + S1024x128.size a := by
  show i ∈ ((View.whole main_v8).slice (win0_11.rect t)).set ↔ _
  rw [View.set_slice_whole, Rect.mem_set_unit]
  exact Iff.rfl

/-- Every row lies in the block of the point that is its quotient by 1024. -/
theorem cover (i : S8192x128.Idx) : ∃ t : Fin cfg0.N, (cfg0.win 11).flush t = true ∧ i ∈ ((cfg0.win 11).blk t).view.set := by
  have hi0 : (i 0).val < 8192 := (i 0).isLt
  have hi1 : (i 1).val < 128 := (i 1).isLt
  have hlt : (i 0).val / 1024 < cfg0.N := by rw [show cfg0.N = 8 from N_0]; omega
  refine ⟨⟨(i 0).val / 1024, hlt⟩, flush0_11 _, ?_⟩
  obtain ⟨-, -, -, -, -, -, e0', e1⟩ := idx_rows ⟨(i 0).val / 1024, hlt⟩
  have e0 : win0_11.index ⟨(i 0).val / 1024, hlt⟩ (0 : Fin 2) = (i 0).val / 1024 := e0'
  rw [mem_blk]
  intro a
  match a with
  | ⟨0, _⟩ => show win0_11.index ⟨(i 0).val / 1024, hlt⟩ (0 : Fin 2) * 1024 ≤ (i 0).val ∧ (i 0).val < win0_11.index ⟨(i 0).val / 1024, hlt⟩ (0 : Fin 2) * 1024 + 1024; rw [e0]; omega
  | ⟨1, _⟩ => show win0_11.index ⟨(i 0).val / 1024, hlt⟩ (1 : Fin 2) * 128 ≤ (i 1).val ∧ (i 1).val < win0_11.index ⟨(i 0).val / 1024, hlt⟩ (1 : Fin 2) * 128 + 128; rw [e1]; omega

/-- The result array after the run is the specification. -/
theorem final (c : Dev nD) : (dats m 0 c).arrAt 11 cfg0.N = result m c :=
  (dats m 0 c).arrAt_eq_of_cover 11 (result m c) (fun t _ => flushed_eq m c t) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun _ h c => ⟨(h c).1.trans (final m c), (h c).2⟩) (Value.run_blocks m ρ)

end Cert.KernelIdeal.Whole

end
-- ==== Proof.RefValue.lean ====
/-
  The reference's result is the specification, entry by entry.

  The reference computes each dense layer as a host contraction of the activations with the weight transposed, plus the
  bias broadcast over the rows: at (r, k) that is `∑ j, a (r, j) · W (k, j) + b k`, the layer `lin`. It adds the three
  layers that feed the fast state in the order (io + cf) + x, halves the old state and the layers' sum, and applies tanh;
  the returned array is the output layer of that state through tanh. The only step that is not a reading of the operations
  at an index is the order of the three summands, which is the specification's by commutativity and associativity.
-/
import proofs.«167018_j9929964389009_1_alg».proof.Proof.Gen.ReferenceIdeal.Read
import proofs.«167018_j9929964389009_1_alg».proof.Proof.Spec

noncomputable section

open scoped BigOperators
open Idealize.ShloMosaic Idealize.ShloMosaic.ValueIdx

namespace Cert.ReferenceIdeal.RefValue

open Cert.ReferenceIdeal Cert.ReferenceIdeal.Read Cert.Mtrnn

/-- The fast state's own recurrent layer, at `(r, k)`. -/
theorem lin_io (x1 : FVec Ideal S8192x512 .f32) (x8 : FVec Ideal S512x512 .f32) (x9 : FVec Ideal S512 .f32)
    (r : Fin 8192) (k : Fin 512) : val_main_v6 (F := Ideal) x1 x8 x9 (ix2 r k) = lin x1 x8 x9 r k := by
  rw [val_main_v6_apply, val_main_v3_apply, val_main_v5_apply, val_main_v4_apply]
  refine congrArg₂ (· + ·) (Finset.sum_congr rfl fun j _ => ?_) ?_
  · rw [val_main_v2_apply]
    refine congrArg₂ (· * ·) (congrArg x1 ?_) (congrArg x8 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x9 (funext fun a => Fin.ext (by match a with | ⟨0, _⟩ => rfl))

/-- The layer from the middle state into the fast one, at `(r, k)`. -/
theorem lin_cf (x2 : FVec Ideal S8192x512 .f32) (x12 : FVec Ideal S512x512 .f32) (x13 : FVec Ideal S512 .f32)
    (r : Fin 8192) (k : Fin 512) : val_main_v11 (F := Ideal) x2 x12 x13 (ix2 r k) = lin x2 x12 x13 r k := by
  rw [val_main_v11_apply, val_main_v8_apply, val_main_v10_apply, val_main_v9_apply]
  refine congrArg₂ (· + ·) (Finset.sum_congr rfl fun j _ => ?_) ?_
  · rw [val_main_v7_apply]
    refine congrArg₂ (· * ·) (congrArg x2 ?_) (congrArg x12 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x13 (funext fun a => Fin.ext (by match a with | ⟨0, _⟩ => rfl))

/-- The input layer, at `(r, k)`. -/
theorem lin_x (x0 : FVec Ideal S8192x128 .f32) (x4 : FVec Ideal S512x128 .f32) (x5 : FVec Ideal S512 .f32)
    (r : Fin 8192) (k : Fin 512) : val_main_v17 (F := Ideal) x0 x4 x5 (ix2 r k) = lin x0 x4 x5 r k := by
  rw [val_main_v17_apply, val_main_v14_apply, val_main_v16_apply, val_main_v15_apply]
  refine congrArg₂ (· + ·) (Finset.sum_congr rfl fun j _ => ?_) ?_
  · rw [val_main_v13_apply]
    refine congrArg₂ (· * ·) (congrArg x0 ?_) (congrArg x4 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x5 (funext fun a => Fin.ext (by match a with | ⟨0, _⟩ => rfl))

/-- The reference's new fast state is the specification's, at `(r, k)`. -/
theorem state_eq (x0 : FVec Ideal S8192x128 .f32) (x1 x2 : FVec Ideal S8192x512 .f32) (x4 : FVec Ideal S512x128 .f32)
    (x5 : FVec Ideal S512 .f32) (x8 : FVec Ideal S512x512 .f32) (x9 : FVec Ideal S512 .f32) (x12 : FVec Ideal S512x512 .f32)
    (x13 : FVec Ideal S512 .f32) (r : Fin 8192) (k : Fin 512) :
    val_main_v22 (F := Ideal) x0 x1 x2 x4 x5 x8 x9 x12 x13 (ix2 r k) = hid x0 x1 x2 x4 x5 x8 x9 x12 x13 r k := by
  rw [val_main_v22_apply, val_main_v21_apply, val_main_v1_apply, val_main_v0_apply, val_main_cst_apply,
    val_main_v20_apply, val_main_v19_apply, val_main_cst_0_apply, val_main_v18_apply, val_main_v12_apply,
    lin_io, lin_cf, lin_x]
  show Ideal.tanh (half * x1 (ix2 r k) + Ideal.div ((lin x1 x8 x9 r k + lin x2 x12 x13 r k) + lin x0 x4 x5 r k) two) = _
  rw [sum3_reorder]
  rfl

/-- The reference's returned array is the specification. -/
theorem result_eq (x0 : FVec Ideal S8192x128 .f32) (x1 x2 : FVec Ideal S8192x512 .f32) (x4 : FVec Ideal S512x128 .f32)
    (x5 : FVec Ideal S512 .f32) (x6 : FVec Ideal S128x512 .f32) (x7 : FVec Ideal S128 .f32) (x8 : FVec Ideal S512x512 .f32)
    (x9 : FVec Ideal S512 .f32) (x12 : FVec Ideal S512x512 .f32) (x13 : FVec Ideal S512 .f32) :
    val_main_v68 (F := Ideal) x0 x1 x2 x4 x5 x6 x7 x8 x9 x12 x13 = out x0 x1 x2 x4 x5 x8 x9 x12 x13 x6 x7 := by
  funext i
  obtain ⟨r, o, rfl⟩ : ∃ (r : Fin 8192) (o : Fin 128), i = ix2 r o := ⟨i 0, i 1, eq_ix2 i⟩
  rw [val_main_v68_apply, val_main_v67_apply, val_main_v64_apply, val_main_v66_apply, val_main_v65_apply]
  show Ideal.tanh (_ + _) = Ideal.tanh (_ + _)
  refine congrArg Ideal.tanh (congrArg₂ (· + ·) (Finset.sum_congr rfl fun k _ => ?_) ?_)
  · rw [val_main_v63_apply]
    refine congrArg₂ (· * ·) ?_ (congrArg x6 ?_)
    · exact (congrArg (val_main_v22 (F := Ideal) x0 x1 x2 x4 x5 x8 x9 x12 x13)
        (funext fun a => Fin.ext (by match a with | ⟨0, _⟩ => rfl | ⟨1, _⟩ => rfl))).trans
        (state_eq x0 x1 x2 x4 x5 x8 x9 x12 x13 r k)
    · exact funext fun a => Fin.ext (by match a with | ⟨0, _⟩ => rfl | ⟨1, _⟩ => rfl)
  · exact congrArg x7 (funext fun a => Fin.ext (by match a with | ⟨0, _⟩ => rfl))

end Cert.ReferenceIdeal.RefValue

end
-- ==== Proof.lean ====
/-
  The certificate of the recurrent cell's kernel against its reference.

  Both programs return `tanh (lin hid Wo bo)` with `hid = tanh (½ · io + (lin x Wx bx + lin io Wio bio + lin cf Wcf bcf) / 2)`
  (Proof/Spec.lean). The kernel walks the 8192 rows in eight blocks of 1024 with every weight resident, and its body is
  four dense layers on a block (Proof/Payload.lean over the dense-layer lemma); the blocks cover the rows, so its result
  array is the specification (Proof/Whole.lean). The reference's run, read one operation at a time, is the specification
  up to the order of three summands (Proof/RefValue.lean). The reference also computes the two slower states, which do not
  reach the result. No finiteness is used: the one law is commutativity and associativity of addition on the extended reals.
  The frames are the generated ones (the reference's is its run with the result dropped); the ideal pass rewrote nothing, so
  the kernel's idealization is its own text and that conjunct is trivial.
-/
import proofs.«167018_j9929964389009_1_alg».proof.Defs
import proofs.«167018_j9929964389009_1_alg».proof.Proof.Gen.Kernel
import proofs.«167018_j9929964389009_1_alg».proof.Proof.Gen.Kernel.Skeleton
import proofs.«167018_j9929964389009_1_alg».proof.Proof.Gen.Kernel.Launch
import proofs.«167018_j9929964389009_1_alg».proof.Proof.Gen.Kernel.Points
import proofs.«167018_j9929964389009_1_alg».proof.Proof.Gen.Kernel.Frame
import proofs.«167018_j9929964389009_1_alg».proof.Proof.Gen.KernelIdeal
import proofs.«167018_j9929964389009_1_alg».proof.Proof.Gen.KernelIdeal.Skeleton
import proofs.«167018_j9929964389009_1_alg».proof.Proof.Gen.KernelIdeal.Launch
import proofs.«167018_j9929964389009_1_alg».proof.Proof.Gen.KernelIdeal.Points
import proofs.«167018_j9929964389009_1_alg».proof.Proof.Gen.KernelIdeal.Frame
import proofs.«167018_j9929964389009_1_alg».proof.Proof.Gen.ReferenceIdeal
import proofs.«167018_j9929964389009_1_alg».proof.Proof.Gen.Pre_finite_inputs
import proofs.«167018_j9929964389009_1_alg».proof.Proof.Gen.KernelIdeal.Value
import proofs.«167018_j9929964389009_1_alg».proof.Proof.Gen.ReferenceIdeal.Run
import proofs.«167018_j9929964389009_1_alg».proof.Proof.Gen.ReferenceIdeal.Read
import proofs.«167018_j9929964389009_1_alg».proof.Proof.Whole
import proofs.«167018_j9929964389009_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The kernel's result array ends at the specification of its arguments, the reference's at its last stage of arguments
    that agree with them: one function. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, -, a4, a5, a6, a7, a8, a9, -, -, a12, a13, -⟩ := hagree c
  rw [Cert.ReferenceIdeal.Read.val_main_v68_eq, Cert.ReferenceIdeal.RefValue.result_eq, a0, a1, a2, a4, a5, a6, a7, a8, a9, a12, a13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
